-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x12800000 : Shape := ⟨2, ![2, 12800000]⟩
abbrev S12800000 : Shape := ⟨1, ![12800000]⟩
abbrev S256x1 : Shape := ⟨2, ![256, 1]⟩
abbrev S1 : Shape := ⟨1, ![1]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S12800000 : S_.BroadcastsInDim S12800000 (![] : Fin 0 → Fin S12800000.rank)
  reducesTo_S12800000_S_d0 : S12800000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S200000x256 .f32) (main_arg1 : IVec S2x12800000 32) (main_arg2 : FVec F S12800000 .f32) (main_arg3 : FVec F S256x1 .f32) (main_arg4 : FVec F S1 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S12800000 .f32 := Host.absf main_arg2
  let main_cst_0 : FVec F S_ .f32 := constant S_ .f32 0x7F800000#32
  let main_v5 : FVec F S12800000 .f32 := broadcastInDim S12800000 ![] bcast_S_S12800000 main_cst_0
  let main_v6 : IVec S12800000 1 := cmpf .olt main_v4 main_v5
  let main_c_1 : IVec S_ 1 := constantI S_ 1 1#1
  let main_v7 : IVec S_ 1 := (fun x v => Host.reduce IntOp.andi x v reducesTo_S12800000_S_d0 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S200000x256 : Shape := ⟨2, ![200000, 256]⟩
abbrev S2x12800000 : Shape := ⟨2, ![2, 12800000]⟩
abbrev S12800000 : Shape := ⟨1, ![12800000]⟩
abbrev S256x1 : Shape := ⟨2, ![256, 1]⟩
abbrev S1 : Shape := ⟨1, ![1]⟩
abbrev S1x12800000 : Shape := ⟨2, ![1, 12800000]⟩
abbrev S200000 : Shape := ⟨1, ![200000]⟩
abbrev S13000000 : Shape := ⟨1, ![13000000]⟩
abbrev S_ : Shape := ⟨0, ![]⟩
abbrev S13000000x1 : Shape := ⟨2, ![13000000, 1]⟩
abbrev S200000x1 : Shape := ⟨2, ![200000, 1]⟩
abbrev S5000x256 : Shape := ⟨2, ![5000, 256]⟩
abbrev S5000x1 : Shape := ⟨2, ![5000, 1]⟩
abbrev S1x200000 : Shape := ⟨2, ![1, 200000]⟩
abbrev S1x1 : Shape := ⟨2, ![1, 1]⟩

abbrev nBuf : Space → Nat
  | .hbm => 56
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S2x12800000, .i32⟩
  | .hbm, ⟨2, _⟩ => ⟨S12800000, .f32⟩
  | .hbm, ⟨3, _⟩ => ⟨S256x1, .f32⟩
  | .hbm, ⟨4, _⟩ => ⟨S1, .f32⟩
  | .hbm, ⟨5, _⟩ => ⟨S1x12800000, .i32⟩
  | .hbm, ⟨6, _⟩ => ⟨S12800000, .i32⟩
  | .hbm, ⟨7, _⟩ => ⟨S1x12800000, .i32⟩
  | .hbm, ⟨8, _⟩ => ⟨S12800000, .i32⟩
  | .hbm, ⟨9, _⟩ => ⟨S200000, .i32⟩
  | .hbm, ⟨10, _⟩ => ⟨S13000000, .i32⟩
  | .hbm, ⟨11, _⟩ => ⟨S13000000, .i32⟩
  | .hbm, ⟨12, _⟩ => ⟨S_, .f32⟩
  | .hbm, ⟨13, _⟩ => ⟨S200000, .f32⟩
  | .hbm, ⟨14, _⟩ => ⟨S13000000, .f32⟩
  | .hbm, ⟨15, _⟩ => ⟨S_, .f32⟩
  | .hbm, ⟨16, _⟩ => ⟨S200000, .f32⟩
  | .hbm, ⟨17, _⟩ => ⟨S13000000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000x1, .f32⟩
  | .hbm, ⟨27, _⟩ => ⟨S200000x1, .f32⟩
  | .hbm, ⟨28, _⟩ => ⟨S200000, .f32⟩
  | .hbm, ⟨29, _⟩ => ⟨S_, .i32⟩
  | .hbm, ⟨30, _⟩ => ⟨S13000000, .i32⟩
  | .hbm, ⟨31, _⟩ => ⟨S13000000, .i1⟩
  | .hbm, ⟨32, _⟩ => ⟨S_, .i32⟩
  | .hbm, ⟨33, _⟩ => ⟨S13000000, .i32⟩
  | .hbm, ⟨34, _⟩ => ⟨S13000000, .i32⟩
  | .hbm, ⟨35, _⟩ => ⟨S13000000, .i32⟩
  | .hbm, ⟨36, _⟩ => ⟨S13000000x1, .i32⟩
  | .hbm, ⟨37, _⟩ => ⟨S13000000, .f32⟩
  | .hbm, ⟨38, _⟩ => ⟨S13000000, .f32⟩
  | .hbm, ⟨39, _⟩ => ⟨S_, .i32⟩
  | .hbm, ⟨40, _⟩ => ⟨S13000000, .i32⟩
  | .hbm, ⟨41, _⟩ => ⟨S13000000, .i1⟩
  | .hbm, ⟨42, _⟩ => ⟨S_, .i32⟩
  | .hbm, ⟨43, _⟩ => ⟨S13000000, .i32⟩
  | .hbm, ⟨44, _⟩ => ⟨S13000000, .i32⟩
  | .hbm, ⟨45, _⟩ => ⟨S13000000, .i32⟩
  | .hbm, ⟨46, _⟩ => ⟨S13000000x1, .i32⟩
  | .hbm, ⟨47, _⟩ => ⟨S13000000, .f32⟩
  | .hbm, ⟨48, _⟩ => ⟨S13000000, .f32⟩
  | .hbm, ⟨49, _⟩ => ⟨S_, .f32⟩
  | .hbm, ⟨50, _⟩ => ⟨S200000, .f32⟩
  | .hbm, ⟨51, _⟩ => ⟨S13000000x1, .i32⟩
  | .hbm, ⟨52, _⟩ => ⟨S200000, .f32⟩
  | .hbm, ⟨53, _⟩ => ⟨S1x200000, .f32⟩
  | .hbm, ⟨54, _⟩ => ⟨S1x1, .f32⟩
  | .hbm, ⟨55, _⟩ => ⟨S1x200000, .f32⟩
  | .local _ .vmem, ⟨0, _⟩ => ⟨S5000x256, .f32⟩
  | .local _ .vmem, ⟨1, _⟩ => ⟨S5000x256, .f32⟩
  | .local _ .vmem, ⟨2, _⟩ => ⟨S256x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S1x200000, .f32⟩
  | .local _ .vmem, ⟨8, _⟩ => ⟨S1x1, .f32⟩
  | .local _ .vmem, ⟨9, _⟩ => ⟨S1x200000, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x200000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  concatenates_S12800000_S200000_S13000000_d0 : Shape.Concatenates [S12800000, S200000] S13000000 0
  bcast_S_S200000 : S_.BroadcastsInDim S200000 (![] : Fin 0 → Fin S200000.rank)
  bcast_S13000000_S13000000x1_0 : S13000000.BroadcastsInDim S13000000x1 (![0] : Fin 1 → Fin S13000000x1.rank)
  shapeCasts_S200000_S200000x1 : S200000.ShapeCasts S200000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S200000x1_S200000 : S200000x1.ShapeCasts S200000
  bcast_S_S13000000 : S_.BroadcastsInDim S13000000 (![] : Fin 0 → Fin S13000000.rank)
  shapeCasts_S200000_S1x200000 : S200000.ShapeCasts S1x200000
  shapeCasts_S1_S1x1 : S1.ShapeCasts S1x1
  inb_S1x200000_S1x200000_0_0 : ∀ a, (![0, 0] : Fin 2 → Nat) a + S1x200000.size a ≤ S1x200000.size a
  h_S1x200000 : 0 < S1x200000.numel
  shapeCasts_S1x200000_S1x200000 : S1x200000.ShapeCasts S1x200000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S200000_S13000000x1_S13000000_n_0_0_1_wf : ScatterDims.WF S200000 S13000000x1 S13000000 [] [0] [0] 1
  dot_S5000x256_S256x1_S5000x1_1_0_0_1_n_n_wf : DotDims.WF S5000x256 S256x1 S5000x1 [1] [0] [0] [1] [] []
  gather_S200000_S13000000x1_S13000000_n_0_n_n_0_1_1_wf : GatherDims.WF S200000 S13000000x1 S13000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S200000x1.size a
  hwx0_3 : ∀ i : grid0.Coords, EltTy.bits .f32 = 32 ∨ (Rect.block (s := S200000x1) S5000x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x200000.size a ≤ S1x200000.size a
  hwx1_0 : ∀ i : grid1.Coords, EltTy.bits .f32 = 32 ∨ (Rect.block (s := S1x200000) S1x200000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200000.size a ≤ S1x200000.size a
  hwx1_2 : ∀ i : grid1.Coords, EltTy.bits .f32 = 32 ∨ (Rect.block (s := S1x200000) S1x200000.size (cc1_transform_2 i) (hinb1_2 i)).WholeWords (EltTy.packing .f32)

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S1x200000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x200000.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x256 : Shape := ⟨2, ![200000, 256]⟩
abbrev S2x12800000 : Shape := ⟨2, ![2, 12800000]⟩
abbrev S12800000 : Shape := ⟨1, ![12800000]⟩
abbrev S256x1 : Shape := ⟨2, ![256, 1]⟩
abbrev S1 : Shape := ⟨1, ![1]⟩
abbrev S1x12800000 : Shape := ⟨2, ![1, 12800000]⟩
abbrev S200000 : Shape := ⟨1, ![200000]⟩
abbrev S13000000 : Shape := ⟨1, ![13000000]⟩
abbrev S_ : Shape := ⟨0, ![]⟩
abbrev S13000000x1 : Shape := ⟨2, ![13000000, 1]⟩
abbrev S200000x1 : Shape := ⟨2, ![200000, 1]⟩
abbrev S1x1 : Shape := ⟨2, ![1, 1]⟩
abbrev S1x200000 : Shape := ⟨2, ![1, 200000]⟩

abbrev nBuf : Space → Nat
  | .hbm => 82
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S2x12800000, .i32⟩
  | .hbm, ⟨2, _⟩ => ⟨S12800000, .f32⟩
  | .hbm, ⟨3, _⟩ => ⟨S256x1, .f32⟩
  | .hbm, ⟨4, _⟩ => ⟨S1, .f32⟩
  | .hbm, ⟨5, _⟩ => ⟨S1x12800000, .i32⟩
  | .hbm, ⟨6, _⟩ => ⟨S12800000, .i32⟩
  | .hbm, ⟨7, _⟩ => ⟨S1x12800000, .i32⟩
  | .hbm, ⟨8, _⟩ => ⟨S12800000, .i32⟩
  | .hbm, ⟨9, _⟩ => ⟨S200000, .i32⟩
  | .hbm, ⟨10, _⟩ => ⟨S13000000, .i32⟩
  | .hbm, ⟨11, _⟩ => ⟨S13000000, .i32⟩
  | .hbm, ⟨12, _⟩ => ⟨S_, .f32⟩
  | .hbm, ⟨13, _⟩ => ⟨S200000, .f32⟩
  | .hbm, ⟨14, _⟩ => ⟨S13000000, .f32⟩
  | .hbm, ⟨15, _⟩ => ⟨S_, .f32⟩
  | .hbm, ⟨16, _⟩ => ⟨S200000, .f32⟩
  | .hbm, ⟨17, _⟩ => ⟨S13000000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S13000000, .i32⟩
  | .hbm, ⟨28, _⟩ => ⟨S13000000, .i1⟩
  | .hbm, ⟨29, _⟩ => ⟨S_, .i32⟩
  | .hbm, ⟨30, _⟩ => ⟨S13000000, .i32⟩
  | .hbm, ⟨31, _⟩ => ⟨S13000000, .i32⟩
  | .hbm, ⟨32, _⟩ => ⟨S13000000, .i32⟩
  | .hbm, ⟨33, _⟩ => ⟨S13000000x1, .i32⟩
  | .hbm, ⟨34, _⟩ => ⟨S13000000, .f32⟩
  | .hbm, ⟨35, _⟩ => ⟨S13000000, .f32⟩
  | .hbm, ⟨36, _⟩ => ⟨S_, .i32⟩
  | .hbm, ⟨37, _⟩ => ⟨S13000000, .i32⟩
  | .hbm, ⟨38, _⟩ => ⟨S13000000, .i1⟩
  | .hbm, ⟨39, _⟩ => ⟨S_, .i32⟩
  | .hbm, ⟨40, _⟩ => ⟨S13000000, .i32⟩
  | .hbm, ⟨41, _⟩ => ⟨S13000000, .i32⟩
  | .hbm, ⟨42, _⟩ => ⟨S13000000, .i32⟩
  | .hbm, ⟨43, _⟩ => ⟨S13000000x1, .i32⟩
  | .hbm, ⟨44, _⟩ => ⟨S13000000, .f32⟩
  | .hbm, ⟨45, _⟩ => ⟨S13000000, .f32⟩
  | .hbm, ⟨46, _⟩ => ⟨S200000x1, .f32⟩
  | .hbm, ⟨47, _⟩ => ⟨S13000000x1, .f32⟩
  | .hbm, ⟨48, _⟩ => ⟨S_, .i32⟩
  | .hbm, ⟨49, _⟩ => ⟨S13000000, .i32⟩
  | .hbm, ⟨50, _⟩ => ⟨S13000000, .i1⟩
  | .hbm, ⟨51, _⟩ => ⟨S_, .i32⟩
  | .hbm, ⟨52, _⟩ => ⟨S13000000, .i32⟩
  | .hbm, ⟨53, _⟩ => ⟨S13000000, .i32⟩
  | .hbm, ⟨54, _⟩ => ⟨S13000000, .i32⟩
  | .hbm, ⟨55, _⟩ => ⟨S13000000x1, .i32⟩
  | .hbm, ⟨56, _⟩ => ⟨S13000000x1, .f32⟩
  | .hbm, ⟨57, _⟩ => ⟨S13000000x1, .f32⟩
  | .hbm, ⟨58, _⟩ => ⟨S_, .f32⟩
  | .hbm, ⟨59, _⟩ => ⟨S200000x1, .f32⟩
  | .hbm, ⟨60, _⟩ => ⟨S13000000x1, .i32⟩
  | .hbm, ⟨61, _⟩ => ⟨S200000x1, .f32⟩
  | .hbm, ⟨62, _⟩ => ⟨S1x1, .f32⟩
  | .hbm, ⟨63, _⟩ => ⟨S200000x1, .f32⟩
  | .hbm, ⟨64, _⟩ => ⟨S200000x1, .f32⟩
  | .hbm, ⟨65, _⟩ => ⟨S_, .f32⟩
  | .hbm, ⟨66, _⟩ => ⟨S200000x1, .f32⟩
  | .hbm, ⟨67, _⟩ => ⟨S200000x1, .f32⟩
  | .hbm, ⟨68, _⟩ => ⟨S200000x1, .f32⟩
  | .hbm, ⟨69, _⟩ => ⟨S200000x1, .f32⟩
  | .hbm, ⟨70, _⟩ => ⟨S200000x1, .i1⟩
  | .hbm, ⟨71, _⟩ => ⟨S200000x1, .f32⟩
  | .hbm, ⟨72, _⟩ => ⟨S200000x1, .f32⟩
  | .hbm, ⟨73, _⟩ => ⟨S200000x1, .f32⟩
  | .hbm, ⟨74, _⟩ => ⟨S200000x1, .f32⟩
  | .hbm, ⟨75, _⟩ => ⟨S200000x1, .f32⟩
  | .hbm, ⟨76, _⟩ => ⟨S200000x1, .f32⟩
  | .hbm, ⟨77, _⟩ => ⟨S200000x1, .f32⟩
  | .hbm, ⟨78, _⟩ => ⟨S200000x1, .f32⟩
  | .hbm, ⟨79, _⟩ => ⟨S200000x1, .f32⟩
  | .hbm, ⟨80, _⟩ => ⟨S200000x1, .f32⟩
  | .hbm, ⟨81, _⟩ => ⟨S1x200000, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  concatenates_S12800000_S200000_S13000000_d0 : Shape.Concatenates [S12800000, S200000] S13000000 0
  bcast_S_S200000 : S_.BroadcastsInDim S200000 (![] : Fin 0 → Fin S200000.rank)
  bcast_S13000000_S13000000x1_0 : S13000000.BroadcastsInDim S13000000x1 (![0] : Fin 1 → Fin S13000000x1.rank)
  bcast_S_S13000000 : S_.BroadcastsInDim S13000000 (![] : Fin 0 → Fin S13000000.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S1x200000 : S200000x1.ShapeCasts S1x200000
  scatter_S200000_S13000000x1_S13000000_n_0_0_1_wf : ScatterDims.WF S200000 S13000000x1 S13000000 [] [0] [0] 1
  gather_S200000_S13000000x1_S13000000_n_0_n_n_0_1_1_wf : GatherDims.WF S200000 S13000000x1 S13000000 [] [0] [] [0] [] 1 ![1]
  dot_S200000x256_S256x1_S200000x1_1_0_0_1_n_n_wf : DotDims.WF S200000x256 S256x1 S200000x1 [1] [0] [0] [1] [] []
  gather_S200000x1_S13000000x1_S13000000x1_1_0_n_n_0_1_11_wf : GatherDims.WF S200000x1 S13000000x1 S13000000x1 [1] [0] [] [0] [] 1 ![1, 1]
  scatter_S200000x1_S13000000x1_S13000000x1_1_0_0_1_wf : ScatterDims.WF S200000x1 S13000000x1 S13000000x1 [1] [0] [0] 1

variable [Facts₀]

def scatter_S200000_S13000000x1_S13000000_n_0_0_1 : ScatterDims S200000 S13000000x1 S13000000 where
  updateWindowDims := []
  insertedWindowDims := [0]
  scatterDimsToOperandDims := [0]
  indexVectorDim := 1
  wf := scatter_S200000_S13000000x1_S13000000_n_0_0_1_wf
def gather_S200000_S13000000x1_S13000000_n_0_n_n_0_1_1 : GatherDims S200000 S13000000x1 S13000000 where
  offsetDims := []
  collapsedSliceDims := [0]
  operandBatchingDims := []
  startIndicesBatchingDims := []
  startIndexMap := [0]
  indexVectorDim := 1
  sliceSizes := ![1]
  wf := gather_S200000_S13000000x1_S13000000_n_0_n_n_0_1_1_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def gather_S200000x1_S13000000x1_S13000000x1_1_0_n_n_0_1_11 : GatherDims S200000x1 S13000000x1 S13000000x1 where
  offsetDims := [1]
  collapsedSliceDims := [0]
  operandBatchingDims := []
  startIndicesBatchingDims := []
  startIndexMap := [0]
  indexVectorDim := 1
  sliceSizes := ![1, 1]
  wf := gather_S200000x1_S13000000x1_S13000000x1_1_0_n_n_0_1_11_wf
def scatter_S200000x1_S13000000x1_S13000000x1_1_0_0_1 : ScatterDims S200000x1 S13000000x1 S13000000x1 where
  updateWindowDims := [1]
  insertedWindowDims := [0]
  scatterDimsToOperandDims := [0]
  indexVectorDim := 1
  wf := scatter_S200000x1_S13000000x1_S13000000x1_1_0_0_1_wf

class Facts : Prop extends Facts₀ where

variable [Facts]
-- ==== Proof.HostReads.lean ====
/-
  What the buffers read by the two kernels hold, as functions of the argument arrays.

  Before the first kernel the program computes, from the edge list, the source and target index
  vectors with one self loop per node appended, the edge weights with a one per self loop, the
  weighted in-degree of every node, and its inverse square root where the degree is positive (zero
  elsewhere). These are the same operations, in the same order, as the reference's first stages, so
  each buffer holds the reference's stage function of the arguments.

  Between the kernels the program gathers the first kernel's result at each edge's source, multiplies
  by the edge weight and by the target's degree scale, and adds each edge's product into its target
  node: `aggRow` is that chain as one function of the first kernel's result and of the index, weight
  and scale vectors, laid as a one-row rectangle for the second kernel.
-/
import proofs.«430267_j22686017257664_3_alg».proof.Proof.Gen.KernelIdeal.Frame
import proofs.«430267_j22686017257664_3_alg».proof.Proof.Gen.ReferenceIdeal.Read
import Idealize.ShloMosaic.Lib.StableHlo.Run

set_option maxRecDepth 16384

noncomputable section

namespace Cert.KernelIdeal.HostReads

open Cert.KernelIdeal Cert.KernelIdeal.Gen Cert.ReferenceIdeal.Read
open Idealize.ShloMosaic Idealize.ShloMosaic.TcCoe Idealize.SL.Sem Idealize.ShloMosaic.StableHlo

variable {F : FTy → Type} [FloatOps F]

/-- The messages summed into their target nodes, as a one-row rectangle: entry `(0, n)` is the sum, over the
    edges `e` whose target is node `n`, of `hd[source e] · w[e] · dis[target e]` (sources and targets read with
    negative indices wrapped and out-of-range ones clamped, as a take does; an edge whose raw target lies
    outside the nodes adds nothing). -/
def aggRow (hd : (⟨S200000x1, .f32⟩ : BufTy).Contents (Elt F)) (row col : (⟨S13000000, .i32⟩ : BufTy).Contents (Elt F))
    (w : (⟨S13000000, .f32⟩ : BufTy).Contents (Elt F)) (dis : (⟨S200000, .f32⟩ : BufTy).Contents (Elt F)) :
    (⟨S1x200000, .f32⟩ : BufTy).Contents (Elt F) :=
  shapeCast S1x200000
    (Host.scatterAdd scatter_S200000_S13000000x1_S13000000_n_0_0_1
      (broadcastInDim S200000 ![] bcast_S_S200000 (constant S_ .f32 0x00000000#32))
      (broadcastInDim S13000000x1 ![0] bcast_S13000000_S13000000x1_0 col)
      (mulf
        (mulf
          (Host.gather gather_S200000_S13000000x1_S13000000_n_0_n_n_0_1_1
            (shapeCast S200000 hd shapeCasts_S200000x1_S200000)
            (broadcastInDim S13000000x1 ![0] bcast_S13000000_S13000000x1_0
              (select (cmpi .slt row (broadcastInDim S13000000 ![] bcast_S_S13000000 (constantI S_ 32 0#32)))
                (addi row (broadcastInDim S13000000 ![] bcast_S_S13000000 (constantI S_ 32 200000#32))) row)))
          w)
        (Host.gather gather_S200000_S13000000x1_S13000000_n_0_n_n_0_1_1 dis
          (broadcastInDim S13000000x1 ![0] bcast_S13000000_S13000000x1_0
            (select (cmpi .slt col (broadcastInDim S13000000 ![] bcast_S_S13000000 (constantI S_ 32 0#32)))
              (addi col (broadcastInDim S13000000 ![] bcast_S_S13000000 (constantI S_ 32 200000#32))) col)))))
    shapeCasts_S200000_S1x200000

variable (m : (ℓ : Loc nD τ sig) → Buf (Elt F) ℓ) (ρ : Dev nD → PrngReg)

/-! ## At the first kernel's entry -/

/-- The source indices, self loops appended. -/
theorem entry_row (c : Dev nD) :
    W3 m ρ c (Proc.devRef .tc main_v5) = val_main_v5 (F := F) (m ((c : Thread nD τ).loc main_arg1)) := by
  show StableHlo.after hostOps0_2 (StableHlo.after hostOps0_1 (StableHlo.after hostOps0 (W0 m ρ c))) (Proc.devRef .tc main_v5) = _
  after_results_simp <;> rfl

/-- The target indices, self loops appended. -/
theorem entry_col (c : Dev nD) :
    W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

/-- The edge weights, a one per self loop appended. -/
theorem entry_wts (c : Dev nD) :
    W3 m ρ c (Proc.devRef .tc main_v8) = val_main_v8 (F := F) (m ((c : Thread nD τ).loc main_arg2)) := by
  show StableHlo.after hostOps0_2 (StableHlo.after hostOps0_1 (StableHlo.after hostOps0 (W0 m ρ c))) (Proc.devRef .tc main_v8) = _
  after_results_simp <;> rfl

/-- The degree scale: the inverse square root of the weighted in-degree where that is positive, zero elsewhere. -/
theorem entry_scale (c : Dev nD) :
    W3 m ρ c (Proc.devRef .tc main_v16)
      = val_main_v16 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v16) = _
  after_results_simp <;> rfl

/-- The degree scale as a column: the first kernel's third operand. -/
theorem entry_scale_col (c : Dev nD) :
    W3 m ρ c (Proc.devRef .tc main_v17)
      = shapeCast S200000x1 (val_main_v16 (F := F) (m ((c : Thread nD τ).loc main_arg1)) (m ((c : Thread nD τ).loc main_arg2)))
          shapeCasts_S200000_S200000x1 := by
  show StableHlo.after hostOps0_2 (StableHlo.after hostOps0_1 (StableHlo.after hostOps0 (W0 m ρ c))) (Proc.devRef .tc main_v17) = _
  after_results_simp <;> rfl

/-- The features, as launched. -/
theorem entry_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

/-- The projection weights, as launched. -/
theorem entry_w (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

/-- The bias, as launched. -/
theorem entry_b (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

/-! ## At the first kernel's exit: only its output array has changed -/

theorem exit_row (c : Dev nD) :
    W4 m ρ c (Proc.devRef .tc main_v5) = val_main_v5 (F := F) (m ((c : Thread nD τ).loc main_arg1)) :=
  (W4_of_ne m ρ c main_v5 (by decide)).trans (entry_row m ρ c)

theorem exit_col (c : Dev nD) :
    W4 m ρ c (Proc.devRef .tc main_v6) = val_main_v6 (F := F) (m ((c : Thread nD τ).loc main_arg1)) :=
  (W4_of_ne m ρ c main_v6 (by decide)).trans (entry_col m ρ c)

theorem exit_wts (c : Dev nD) :
    W4 m ρ c (Proc.devRef .tc main_v8) = val_main_v8 (F := F) (m ((c : Thread nD τ).loc main_arg2)) :=
  (W4_of_ne m ρ c main_v8 (by decide)).trans (entry_wts m ρ c)

theorem exit_scale (c : Dev nD) :
    W4 m ρ c (Proc.devRef .tc main_v16)
      = val_main_v16 (F := F) (m ((c : Thread nD τ).loc main_arg1)) (m ((c : Thread nD τ).loc main_arg2)) :=
  (W4_of_ne m ρ c main_v16 (by decide)).trans (entry_scale m ρ c)

theorem exit_b (c : Dev nD) : W4 m ρ c (Proc.devRef .tc main_arg4) = m ((c : Thread nD τ).loc main_arg4) :=
  (W4_of_ne m ρ c main_arg4 (by decide)).trans (entry_b m ρ c)

/-- The first kernel's output array is what its pipeline leaves there. -/
theorem exit_proj (c : Dev nD) :
    W4 m ρ c (Proc.devRef .tc main_v18) = (dat0 (V3 m ρ) c).arrAt 3 cfg0.N :=
  W4_arr m ρ c 3

/-! ## At the second kernel's entry -/

/-- The second kernel's first operand: the messages summed per target node, over the first kernel's output. -/
theorem mid_agg (c : Dev nD) :
    W5 m ρ c (Proc.devRef .tc main_v39)
      = aggRow (F := F) (W4 m ρ c (Proc.devRef .tc main_v18)) (W4 m ρ c (Proc.devRef .tc main_v5)) (W4 m ρ c (Proc.devRef .tc main_v6))
          (W4 m ρ c (Proc.devRef .tc main_v8)) (W4 m ρ c (Proc.devRef .tc main_v16)) := by
  show StableHlo.after hostOps1 (W4 m ρ c) (Proc.devRef .tc main_v39) = _
  after_results_simp <;> rfl

/-- The second kernel's second operand: the bias as a one-entry rectangle. -/
theorem mid_bias (c : Dev nD) :
    W5 m ρ c (Proc.devRef .tc main_v40) = shapeCast S1x1 (W4 m ρ c (Proc.devRef .tc main_arg4)) shapeCasts_S1_S1x1 := by
  show StableHlo.after hostOps1 (W4 m ρ c) (Proc.devRef .tc main_v40) = _
  after_results_simp <;> rfl

end Cert.KernelIdeal.HostReads

end
-- ==== Proof.ProjRegion.lean ====
/- The value of the program's first kernel region, at the ideal values (a float is an extended real, a truncation is
   the identity, a matrix product into a zero accumulator is the plain sum of products). The region's body computes, per
   block of 5000 rows, the block of the first array times the column vector, then scales each row; its 40 blocks tile the
   200000 rows. Here: the body's payload read at a row of its block (`pay_apply`), each window's block read at an index as
   the array at the index the block's rectangle names (`blk0_apply` … `emb3`), what each grid point writes back as its
   block of one function `projOut` of the three arrays read (`flushed_eq`), the cover of the output's rows by the blocks
   (`cover3`), and so the output array after the region (`out_arr`), for any contents the region is entered with. -/
import proofs.«430267_j22686017257664_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.ProjRegion

open Cert.KernelIdeal Cert.KernelIdeal.Gen Idealize.ShloMosaic Idealize.ShloMosaic.TcCoe Idealize.SL.Sem
open Idealize.ShloMosaic.ValueIdx
open Idealize.ShloMosaic.Pipeline (Dat)

/-- The region's output as one function of the three arrays it reads: row `i` of the first array contracted with the
    column vector, times the scale at row `i`. -/
abbrev projOut (a0 : S200000x256.Idx → EReal) (a3 : S256x1.Idx → EReal) (a17 : S200000x1.Idx → EReal) : S200000x1.Idx → EReal :=
  fun i => (∑ k : Fin 256, a0 (ix2 ⟨(i 0).val, (i 0).isLt⟩ k) * a3 (ix2 k (0 : Fin 1))) * a17 i

/-! ## The body's payload at an index -/

/-- The left operand's row is the output's row. -/
theorem lhs_row (i : S5000x1.Idx) (q : dot_S5000x256_S256x1_S5000x1_1_0_0_1_n_n.contr.Idx) :
    (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
/-- The left operand's column is the contraction position. -/
theorem lhs_col (i : S5000x1.Idx) (q : dot_S5000x256_S256x1_S5000x1_1_0_0_1_n_n.contr.Idx) :
    (dot_S5000x256_S256x1_S5000x1_1_0_0_1_n_n.lhsIdx i q 1).val = (q ⟨0, by decide⟩).val :=
  dot_S5000x256_S256x1_S5000x1_1_0_0_1_n_n.lhsIdx_val_of_single rfl i q
/-- The right operand's row is the contraction position. -/
theorem rhs_row (i : S5000x1.Idx) (q : dot_S5000x256_S256x1_S5000x1_1_0_0_1_n_n.contr.Idx) :
    (dot_S5000x256_S256x1_S5000x1_1_0_0_1_n_n.rhsIdx i q 0).val = (q ⟨0, by decide⟩).val :=
  dot_S5000x256_S256x1_S5000x1_1_0_0_1_n_n.rhsIdx_val_of_single rfl i q
/-- The right operand's column is the output's column. -/
theorem rhs_col (i : S5000x1.Idx) (q : dot_S5000x256_S256x1_S5000x1_1_0_0_1_n_n.contr.Idx) :
    (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- The matrix product of a block at row `r`: the sum over the 256 contraction positions. -/
theorem matmul_row (l : FVec Ideal S5000x256 .bf16) (w : FVec Ideal S256x1 .bf16) (r : Fin 5000) :
    matmul (F := Ideal) dot_S5000x256_S256x1_S5000x1_1_0_0_1_n_n none l w (constant S5000x1 .f32 0x00000000#32) (ix2 r (0 : Fin 1))
      = ∑ k : Fin 256, l (ix2 r k) * w (ix2 k (0 : Fin 1)) := by
  simp only [matmul]
  rw [Ideal.matmul_constant_zero_apply, ← Equiv.sum_comp (contrEquiv1 dot_S5000x256_S256x1_S5000x1_1_0_0_1_n_n 256 rfl rfl).symm]
  refine Finset.sum_congr rfl fun k _ => ?_
  have hk := contrEquiv1_symm_val dot_S5000x256_S256x1_S5000x1_1_0_0_1_n_n 256 rfl rfl k
  have el : dot_S5000x256_S256x1_S5000x1_1_0_0_1_n_n.lhsIdx (ix2 r (0 : Fin 1)) ((contrEquiv1 dot_S5000x256_S256x1_S5000x1_1_0_0_1_n_n 256 rfl rfl).symm k) = ix2 r k := funext fun a => Fin.ext (by
    match a with
    | ⟨0, _⟩ => exact lhs_row _ _
    | ⟨1, _⟩ => exact (lhs_col _ _).trans hk)
  have er : dot_S5000x256_S256x1_S5000x1_1_0_0_1_n_n.rhsIdx (ix2 r (0 : Fin 1)) ((contrEquiv1 dot_S5000x256_S256x1_S5000x1_1_0_0_1_n_n 256 rfl rfl).symm k) = ix2 k (0 : Fin 1) := funext fun a => Fin.ext (by
    match a with
    | ⟨0, _⟩ => exact (rhs_row _ _).trans hk
    | ⟨1, _⟩ => exact rhs_col _ _)
  rw [el, er]

/-- The payload at row `r`: the truncations are the identity on the ideal values, the same-shape cast is the identity. -/
theorem pay_apply (x0 : Vec Ideal S5000x256 .f32) (x1 : Vec Ideal S256x1 .f32) (x2 : Vec Ideal S5000x1 .f32) (r : Fin 5000) :
    k0_pay1 (F := Ideal) x0 x1 x2 (ix2 r (0 : Fin 1))
      = (∑ k : Fin 256, x0 (ix2 r k) * x1 (ix2 k (0 : Fin 1))) * x2 (ix2 r (0 : Fin 1)) := by
  unfold k0_pay1
  rw [mulf_apply, shapeCast_self, matmul_row]
  rfl

/-! ## From the blocks to the array -/

theorem zeros2 : (![0, 0] : Fin 2 → Nat) = fun _ => 0 := funext fun a => by
  match a with
  | ⟨0, _⟩ => rfl
  | ⟨1, _⟩ => rfl

/-- The printed index maps over the grid: the three row-blocked windows sit at block row `t`, column block 0; the
    column vector's window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of block `t` is row `5000 t + r` of the array. -/
abbrev row (t : Fin cfg0.N) (r : Fin 5000) : Fin 200000 :=
  ⟨t.val * 5000 + r.val, by
    have ht : t.val < grid0.N := t.isLt
    rw [N_0] at ht
    have hr := r.isLt
    omega⟩

variable (V : (c : Dev nD) → (b : Ref sig .tc) → Buf (Elt Ideal) ((c : Thread nD τ).loc b))

/-- The first window's block at point `t`, read at (r, k): the array at row `5000 t + r`, column `k`. -/
theorem blk0_apply (c : Dev nD) (t : Fin cfg0.N) (r : Fin 5000) (k : Fin 256) :
    (iblk0 V c 0 t : Vec Ideal S5000x256 .f32) (ix2 r k) = (V c main_arg0 : S200000x256.Idx → EReal) (ix2 (row t r) k) := by
  obtain ⟨e0, e1, -⟩ := idx_facts t
  unfold iblk0
  rw [View.read_apply]
  show V c main_arg0 (((cfg0.win 0).blk t).view.emb (ix2 r k)) = V c main_arg0 (ix2 (row t r) k)
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 256 + 1 * k.val = k.val; rw [e1]; omega

/-- The column vector's block at any point is the whole vector. -/
theorem blk1_apply (c : Dev nD) (t : Fin cfg0.N) (k : Fin 256) :
    (iblk0 V c 1 t : Vec Ideal S256x1 .f32) (ix2 k (0 : Fin 1)) = (V c main_arg3 : S256x1.Idx → EReal) (ix2 k (0 : Fin 1)) := by
  obtain ⟨-, -, e0, e1, -⟩ := idx_facts t
  unfold iblk0
  rw [View.read_apply]
  show V c main_arg3 (((cfg0.win 1).blk t).view.emb (ix2 k (0 : Fin 1))) = V c main_arg3 (ix2 k (0 : Fin 1))
  congr 1
  funext a
  apply Fin.ext
  match a with
  | ⟨0, _⟩ => show win0_1.index t (0 : Fin 2) * 256 + 1 * k.val = k.val; rw [e0]; omega
  | ⟨1, _⟩ => show win0_1.index t (1 : Fin 2) * 1 + 1 * 0 = 0; rw [e1]

/-- The scale's block at point `t`, read at row `r`: the scale at row `5000 t + r`. -/
theorem blk2_apply (c : Dev nD) (t : Fin cfg0.N) (r : Fin 5000) :
    (iblk0 V c 2 t : Vec Ideal S5000x1 .f32) (ix2 r (0 : Fin 1)) = (V c main_v17 : S200000x1.Idx → EReal) (ix2 (row t r) (0 : Fin 1)) := by
  obtain ⟨-, -, -, -, e0, e1, -⟩ := idx_facts t
  unfold iblk0
  rw [View.read_apply]
  show V c main_v17 (((cfg0.win 2).blk t).view.emb (ix2 r (0 : Fin 1))) = V c main_v17 (ix2 (row t r) (0 : Fin 1))
  congr 1
  funext a
  apply Fin.ext
  match a with
  | ⟨0, _⟩ => show win0_2.index t (0 : Fin 2) * 5000 + 1 * r.val = t.val * 5000 + r.val; rw [e0]; omega
  | ⟨1, _⟩ => show win0_2.index t (1 : Fin 2) * 1 + 1 * 0 = 0; rw [e1]

/-- Row `r` of the output's block at point `t` sits at row `5000 t + r` of the output array. -/
theorem emb3 (t : Fin cfg0.N) (r : Fin 5000) :
    ((cfg0.win 3).blk t).view.emb (ix2 r (0 : Fin 1)) = (ix2 (row t r) (0 : Fin 1) : S200000x1.Idx) := by
  obtain ⟨-, -, -, -, -, -, e0, e1⟩ := idx_facts t
  funext a
  apply Fin.ext
  match a with
  | ⟨0, _⟩ => show win0_3.index t (0 : Fin 2) * 5000 + 1 * r.val = t.val * 5000 + r.val; rw [e0]; omega
  | ⟨1, _⟩ => show win0_3.index t (1 : Fin 2) * 1 + 1 * 0 = 0; rw [e1]

/-- `projOut` at row `q`, spelt with the row as a variable. -/
theorem projOut_row (a0 : S200000x256.Idx → EReal) (a3 : S256x1.Idx → EReal) (a17 : S200000x1.Idx → EReal) (q : Fin 200000) :
    projOut a0 a3 a17 (ix2 q (0 : Fin 1)) = (∑ k : Fin 256, a0 (ix2 q k) * a3 (ix2 k (0 : Fin 1))) * a17 (ix2 q (0 : Fin 1)) := rfl

/-- WHAT POINT `t` WRITES BACK is block `t` of `projOut` of the arrays as the region finds them. -/
theorem flushed_eq (c : Dev nD) (t : Fin cfg0.N) :
    (dat0 (F := Ideal) V c).flushed 3 t
      = ((cfg0.win 3).blk t).view.read (Elt Ideal) (projOut (V c main_arg0) (V c main_arg3) (V c main_v17)) := by
  show (cfg0.win 3).cut (grid0.coords t) ((dat0 (F := Ideal) V c).after 3 t) = _
  rw [after0_3]
  unfold out0_3
  rw [View.canon_unit_zero zeros2]
  simp only [View.ld_unit_zero (S := S5000x256) zeros2, View.ld_unit_zero (S := S256x1) zeros2, View.ld_unit_zero (S := S5000x1) zeros2]
  funext j
  obtain ⟨r, rfl⟩ : ∃ r : Fin 5000, j = ix2 r (0 : Fin 1) :=
    ⟨⟨(j 0).val, (j 0).isLt⟩, funext fun a => Fin.ext (by
      match a with
      | ⟨0, _⟩ => rfl
      | ⟨1, _⟩ => show (j 1).val = 0; have h1 : (j 1).val < 1 := (j 1).isLt; omega)⟩
  show k0_pay1 (F := Ideal) (iblk0 V c 0 t) (iblk0 V c 1 t) (iblk0 V c 2 t) (ix2 r (0 : Fin 1))
    = projOut (V c main_arg0) (V c main_arg3) (V c main_v17) (((cfg0.win 3).blk t).view.emb (ix2 r (0 : Fin 1)))
  rw [pay_apply, emb3, blk2_apply, projOut_row]
  congr 1
  exact Finset.sum_congr rfl fun k _ => by rw [blk0_apply, blk1_apply]

/-- An index of the output array is in point `t`'s block iff each coordinate is in the block's range on its axis. -/
theorem mem_blk3 (t : Fin cfg0.N) (i : S200000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v18).slice (win0_3.rect t)).set ↔ _
  rw [View.set_slice_whole, Rect.mem_set_unit]
  exact Iff.rfl

/-- Every row of the output array is in some point's block: row `i` in that of point `i / 5000`. -/
theorem cover3 (i : S200000x1.Idx) :
    ∃ t : Fin cfg0.N, (cfg0.win 3).flush t = true ∧ i ∈ ((cfg0.win 3).blk t).view.set := by
  have hi0 : (i 0).val < 200000 := (i 0).isLt
  have hi1 : (i 1).val < 1 := (i 1).isLt
  have hN : grid0.N = 40 := N_0
  let t : Fin cfg0.N := ⟨(i 0).val / 5000, by show (i 0).val / 5000 < grid0.N; rw [hN]; omega⟩
  obtain ⟨-, -, -, -, -, -, e0, e1⟩ := idx_facts t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 1 ≤ (i 1).val ∧ (i 1).val < win0_3.index t (1 : Fin 2) * 1 + 1; rw [e1]; omega

/-- THE OUTPUT ARRAY after the region: `projOut` of the three arrays it reads, as the region finds them. -/
theorem out_arr (c : Dev nD) :
    ((Gen.dat0 (F := Ideal) V c).arrAt 3 cfg0.N : S200000x1.Idx → EReal)
      = projOut (V c main_arg0) (V c main_arg3) (V c main_v17) :=
  (dat0 (F := Ideal) V c).arrAt_eq_of_cover 3 (projOut (V c main_arg0) (V c main_arg3) (V c main_v17))
    (fun t _ => flushed_eq V c t) cover3

end Cert.KernelIdeal.ProjRegion

end
-- ==== Proof.MishRegion.lean ====
/- The value of the program's second pallas_call, `cc1__mish_kernel`: a grid of one point whose three
   windows are whole arrays (two inputs `main_v39` [1 x 200000] and `main_v40` [1 x 1], one output `main_v41` [1 x 200000]).
   For any contents `V` at the region's entry, the output array after the region is the body's payload `k1_pay1` of the
   two whole input arrays (`out_arr`). The steps: every window's block index is (0, 0) at the one point (`index_zero`), so
   a block's coordinate, index × size + 1 × the coordinate inside, is the coordinate itself; hence each input block is its
   whole array (`block_in0`, `block_in1`) and reading any array through the output's block gives the array back
   (`read_out`); so what the point writes back is the payload read through the output's block (`flushed_eq`); the one
   block holds every index of the output array (`mem_out` and the cover), so the array ends at the payload. -/
import proofs.«430267_j22686017257664_3_alg».proof.Proof.Gen.KernelIdeal.Frame
import Idealize.ShloMosaic.Lib.Pipeline.Value

set_option maxRecDepth 16384

noncomputable section

namespace Cert.KernelIdeal.MishRegion

open Cert.KernelIdeal Cert.KernelIdeal.Gen Idealize.ShloMosaic Idealize.ShloMosaic.TcCoe Idealize.SL.Sem
open Idealize.ShloMosaic.Pipeline (Dat)

variable {F : FTy → Type} [FloatOps F]
-- the TensorCore's buffer contents when the region is entered: any
variable (V : (c : Dev nD) → (b : Ref sig .tc) → Buf (Elt F) ((c : Thread nD τ).loc b))

/-- The body's accesses start at offsets (0, 0). -/
theorem zero_offsets : (![0, 0] : Fin 2 → Nat) = fun _ => 0 := funext fun a => by fin_cases a <;> rfl

/-- The three index maps are constant: at the grid's one point every window's block index is (0, 0). -/
theorem index_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Input window 0's block is the whole array `main_v39`: the block's coordinate `0 × size + 1 × y` is `y`. -/
theorem block_in0 (c : Dev nD) (t : Fin cfg1.N) : (iblk1 V c 0 t : Vec F S1x200000 .f32) = (V c main_v39 : Vec F S1x200000 .f32) := by
  obtain ⟨e0, e1, -, -, -, -⟩ := index_zero t
  unfold iblk1
  funext y
  rw [View.read_apply]
  show V c main_v39 (((cfg1.win 0).blk t).view.emb y) = V c main_v39 y
  congr 1
  funext a
  apply Fin.ext
  match a with
  | ⟨0, _⟩ => show win1_0.index t (0 : Fin 2) * 1 + 1 * (y 0).val = (y 0).val; rw [e0]; omega
  | ⟨1, _⟩ => show win1_0.index t (1 : Fin 2) * 200000 + 1 * (y 1).val = (y 1).val; rw [e1]; omega

/-- Input window 1's block is the whole array `main_v40`. -/
theorem block_in1 (c : Dev nD) (t : Fin cfg1.N) : (iblk1 V c 1 t : Vec F S1x1 .f32) = (V c main_v40 : Vec F S1x1 .f32) := by
  obtain ⟨-, -, e0, e1, -, -⟩ := index_zero t
  unfold iblk1
  funext y
  rw [View.read_apply]
  show V c main_v40 (((cfg1.win 1).blk t).view.emb y) = V c main_v40 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

/-- Any contents `G` of the output array, read through the output window's block at the point, is `G`. -/
theorem read_out (t : Fin cfg1.N) (G : Vec F S1x200000 .f32) :
    (((cfg1.win 2).blk t).view.read (Elt F) G : Vec F S1x200000 .f32) = G := by
  obtain ⟨-, -, -, -, e0, e1⟩ := index_zero t
  funext y
  rw [View.read_apply]
  show G (((cfg1.win 2).blk t).view.emb y) = G y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 200000 + 1 * (y 1).val = (y 1).val; rw [e1]; omega

/-- WHAT THE POINT WRITES BACK is the output's block of the payload of the two whole input arrays: the body's one
    store at zero offsets fills the staging buffer with the payload of its two loads, each load at zero offsets the
    whole input block, each input block its whole array. -/
theorem flushed_eq (c : Dev nD) (t : Fin cfg1.N) :
    (dat1 V c).flushed 2 t = ((cfg1.win 2).blk t).view.read (Elt F) (k1_pay1 (V c main_v39 : Vec F S1x200000 .f32) (V c main_v40 : Vec F S1x1 .f32)) := by
  show (cfg1.win 2).cut (grid1.coords t) ((dat1 V c).after 2 t) = _
  rw [after1_2]
  unfold out1_2
  rw [View.canon_unit_zero zero_offsets]
  simp only [View.ld_unit_zero (S := S1x200000) zero_offsets, View.ld_unit_zero (S := S1x1) zero_offsets]
  rw [block_in0, block_in1, read_out]
  rfl

/-- An index of the output array is in the point's block iff each coordinate is in the block's range on its axis. -/
theorem mem_out (t : Fin cfg1.N) (i : S1x200000.Idx) :
    i ∈ ((cfg1.win 2).blk t).view.set ↔ ∀ a : Fin 2, win1_2.index t a * S1x200000.size a ≤ (i a).val ∧ (i a).val < win1_2.index t a * S1x200000.size a + S1x200000.size a := by
  show i ∈ ((View.whole main_v41).slice (win1_2.rect t)).set ↔ _
  rw [View.set_slice_whole, Rect.mem_set_unit]
  exact Iff.rfl

/-- THE OUTPUT ARRAY after the region: the payload of the two whole input arrays. The one point's block, index (0, 0) of
    sizes [1, 200000], holds every index of the array. -/
theorem out_arr (c : Dev nD) :
    ((dat1 (F := F) V c).arrAt 2 cfg1.N : Vec F S1x200000 .f32) = k1_pay1 (V c main_v39 : Vec F S1x200000 .f32) (V c main_v40 : Vec F S1x1 .f32) :=
  (dat1 V c).arrAt_eq_of_cover 2 (k1_pay1 (V c main_v39 : Vec F S1x200000 .f32) (V c main_v40 : Vec F S1x1 .f32)) (fun t _ => flushed_eq V c t) fun i => by
    refine ⟨t1_0, flush1_2 t1_0, ?_⟩
    rw [mem_out]
    obtain ⟨-, -, -, -, e0, e1⟩ := index_zero t1_0
    have h0 : (i 0).val < 1 := (i 0).isLt
    have h1 : (i 1).val < 200000 := (i 1).isLt
    intro a
    match a with
    | ⟨0, _⟩ => show win1_2.index t1_0 (0 : Fin 2) * 1 ≤ (i 0).val ∧ (i 0).val < win1_2.index t1_0 (0 : Fin 2) * 1 + 1; rw [e0]; omega
    | ⟨1, _⟩ => show win1_2.index t1_0 (1 : Fin 2) * 200000 ≤ (i 1).val ∧ (i 1).val < win1_2.index t1_0 (1 : Fin 2) * 200000 + 200000; rw [e1]; omega

end Cert.KernelIdeal.MishRegion

end
-- ==== Proof.KernelValue.lean ====
/-
  The kernel program's result as one function of its five arguments.

  The second kernel's grid is a single point whose blocks are the whole arrays, so its output array
  is its body applied to its two input arrays: the per-node sums of messages laid as a row, and the
  bias. The messages are formed between the kernels from the first kernel's output, which is, row by
  row, the feature row contracted with the projection column and scaled by the node's degree scale.
  Every other buffer read on the way is a stage of the host chain both programs share.
-/
import proofs.«430267_j22686017257664_3_alg».proof.Proof.HostReads
import proofs.«430267_j22686017257664_3_alg».proof.Proof.ProjRegion
import proofs.«430267_j22686017257664_3_alg».proof.Proof.MishRegion

set_option maxRecDepth 16384

noncomputable section

namespace Cert.KernelIdeal.ResultValue

open Cert.KernelIdeal Cert.KernelIdeal.Gen Cert.ReferenceIdeal.Read Cert.KernelIdeal.HostReads
open Idealize.ShloMosaic Idealize.ShloMosaic.TcCoe Idealize.SL.Sem

/-- The degree scale of the argument arrays, as a column. -/
abbrev scaleCol (x1 : (⟨S2x12800000, .i32⟩ : BufTy).Contents (Elt Ideal)) (x2 : (⟨S12800000, .f32⟩ : BufTy).Contents (Elt Ideal)) :
    (⟨S200000x1, .f32⟩ : BufTy).Contents (Elt Ideal) :=
  shapeCast S200000x1 (val_main_v16 (F := Ideal) x1 x2) shapeCasts_S200000_S200000x1

/-- The kernel program's result: the second kernel's body over the summed messages and the bias, the messages formed
    from the scaled projection of the features. -/
def kernelOut (x0 : (⟨S200000x256, .f32⟩ : BufTy).Contents (Elt Ideal)) (x1 : (⟨S2x12800000, .i32⟩ : BufTy).Contents (Elt Ideal))
    (x2 : (⟨S12800000, .f32⟩ : BufTy).Contents (Elt Ideal)) (x3 : (⟨S256x1, .f32⟩ : BufTy).Contents (Elt Ideal))
    (x4 : (⟨S1, .f32⟩ : BufTy).Contents (Elt Ideal)) : (⟨S1x200000, .f32⟩ : BufTy).Contents (Elt Ideal) :=
  k1_pay1 (F := Ideal)
    (aggRow (F := Ideal) (ProjRegion.projOut x0 x3 (scaleCol x1 x2)) (val_main_v5 (F := Ideal) x1) (val_main_v6 (F := Ideal) x1)
      (val_main_v8 (F := Ideal) x2) (val_main_v16 (F := Ideal) x1 x2))
    (shapeCast S1x1 x4 shapeCasts_S1_S1x1)

variable (m : (ℓ : Loc nD τ sig) → Buf (Elt Ideal) ℓ) (ρ : Dev nD → PrngReg)

/-- The first kernel's output array, over the argument arrays. -/
theorem proj_eq (c : Dev nD) :
    W4 m ρ c (Proc.devRef .tc main_v18)
      = ProjRegion.projOut (m ((c : Thread nD τ).loc main_arg0)) (m ((c : Thread nD τ).loc main_arg3))
          (scaleCol (m ((c : Thread nD τ).loc main_arg1)) (m ((c : Thread nD τ).loc main_arg2))) := by
  refine (exit_proj m ρ c).trans ((ProjRegion.out_arr (V3 m ρ) c).trans ?_)
  show ProjRegion.projOut (W3 m ρ c (Proc.devRef .tc main_arg0)) (W3 m ρ c (Proc.devRef .tc main_arg3)) (W3 m ρ c (Proc.devRef .tc main_v17)) = _
  rw [entry_x, entry_w, entry_scale_col]

/-- The second kernel's first operand, over the argument arrays. -/
theorem agg_eq (c : Dev nD) :
    W5 m ρ c (Proc.devRef .tc main_v39)
      = aggRow (F := Ideal) (ProjRegion.projOut (m ((c : Thread nD τ).loc main_arg0)) (m ((c : Thread nD τ).loc main_arg3))
            (scaleCol (m ((c : Thread nD τ).loc main_arg1)) (m ((c : Thread nD τ).loc main_arg2))))
          (val_main_v5 (F := Ideal) (m ((c : Thread nD τ).loc main_arg1))) (val_main_v6 (F := Ideal) (m ((c : Thread nD τ).loc main_arg1)))
          (val_main_v8 (F := Ideal) (m ((c : Thread nD τ).loc main_arg2)))
          (val_main_v16 (F := Ideal) (m ((c : Thread nD τ).loc main_arg1)) (m ((c : Thread nD τ).loc main_arg2))) := by
  rw [mid_agg, proj_eq, exit_row, exit_col, exit_wts, exit_scale]

/-- The second kernel's second operand, over the argument arrays. -/
theorem bias_eq (c : Dev nD) :
    W5 m ρ c (Proc.devRef .tc main_v40) = shapeCast S1x1 (m ((c : Thread nD τ).loc main_arg4)) shapeCasts_S1_S1x1 := by
  rw [mid_bias, exit_b]

/-- THE RESULT: what the program's result array holds at the end, over the argument arrays. -/
theorem result_eq (c : Dev nD) :
    W6 m ρ c (Proc.devRef .tc main_v41)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 2).trans ((MishRegion.out_arr (V5 m ρ) c).trans ?_)
  show k1_pay1 (F := Ideal) (W5 m ρ c (Proc.devRef .tc main_v39)) (W5 m ρ c (Proc.devRef .tc main_v40)) = _
  rw [agg_eq, bias_eq]
  rfl

end Cert.KernelIdeal.ResultValue

end
-- ==== Proof.LibTakeScatter.lean ====
/-
  Three host operations read at ONE index, for abstract extents: the take of rows out of an [N × 1] column
  (a `stablehlo.gather` whose row axis is collapsed and start-indexed and whose unit axis is an offset axis of slice
  size 1), and the accumulating float scatter at the ideal instance into a length-N vector and into an [N × 1] column,
  the scatter indices an [n × 1] column of row numbers. The dimension numbers enter as field equations, so the lemmas
  apply to any record that carries those numbers.
-/
import Idealize.ShloMosaic.PureOps.Ideal
import Idealize.ShloMosaic.Lib.ValueIdx
import Idealize.ShloMosaic.Lib.StableHlo.Predicate

namespace Cert.LibTakeScatter

open Idealize.ShloMosaic Idealize.ShloMosaic.ValueIdx Idealize.ShloMosaic.StableHlo.Predicate

/-- THE TAKE OF ROWS OUT OF A COLUMN. A gather of an [N × 1] operand at an [n × 1] column of start indices, with the row
    axis collapsed and start-indexed, the unit axis an offset axis of slice size 1, and the index vector on axis 1.
    Result row `p` reads the operand at row `p`'s start index, read SIGNED and CLAMPED into [0, N − 1]: on the row axis
    the operand coordinate is the clamped start (batching and offset parts are 0); on the unit axis it lies below 1,
    so it is 0. -/
theorem gather_col {α : Type} {N n w : Nat} (hN : 0 < N) (d : GatherDims ⟨2, ![N, 1]⟩ ⟨2, ![n, 1]⟩ ⟨2, ![n, 1]⟩)
    (hoff : d.offsetDims = [1]) (hcoll : d.collapsedSliceDims = [0]) (hob : d.operandBatchingDims = [])
    (hsim : d.startIndexMap = [0]) (hivd : d.indexVectorDim = 1) (hss : d.sliceSizes = ![1, 1])
    (x : (⟨2, ![N, 1]⟩ : Shape).Idx → α) (idx : IVec ⟨2, ![n, 1]⟩ w) (p : Fin n) :
    Host.gather d x idx (ix2 p (0 : Fin 1))
      = x (ix2 ⟨min (idx (ixP p)).toInt.toNat (N - 1), by omega⟩ (0 : Fin 1)) := by
  have h1 : (d.operandIdx (ix2 p (0 : Fin 1)) idx (1 : Fin 2)).val = 0 := by
    have h := (d.operandIdx (ix2 p (0 : Fin 1)) idx (1 : Fin 2)).isLt
    change _ < 1 at h
    omega
  have h0 : (d.operandIdx (ix2 p (0 : Fin 1)) idx (0 : Fin 2)).val = min (idx (ixP p)).toInt.toNat (N - 1) := by
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X ∈ d.batchDims → ((ix2 p (0 : Fin 1) : (⟨2, ![n, 1]⟩ : Shape).Idx) X).val = p.val := by
        intro X hX
        have hbd : d.batchDims = [0] := by
          show Shape.kept _ d.offsetDims = _
          rw [hoff]; rfl
        rw [hbd] at hX
        obtain rfl := List.mem_singleton.mp hX
        rfl
      exact e _ (List.getElem_mem _)
    | ⟨1, _⟩ =>
      unfold GatherDims.siIdx
      rw [dif_pos (by rw [hivd])]
      apply Fin.ext
      show List.idxOf (0 : Fin 2) d.startIndexMap = 0
      rw [hsim]; simp
  unfold Host.gather
  congr 1
  funext a
  match a with
  | ⟨0, _⟩ => exact Fin.ext h0
  | ⟨1, _⟩ => exact Fin.ext h1

/-- WHERE AN UPDATE LANDS, as integer equations: update index `j` lands on operand index `i` exactly when, on every operand
    axis, the start (read signed) plus the window coordinate is `i`'s coordinate. (An update leaving the operand on some
    axis lands nowhere, and then no `i` satisfies the equations, its coordinates being in range.) -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro e a
      have ha := h a
      rw [← e]
      show d.start j idx a + (d.window j a : ℤ) = (((d.start j idx a + (d.window j a : ℤ)).toNat : ℕ) : ℤ)
      omega
    · intro e
      funext a
      apply Fin.ext
      show (d.start j idx a + (d.window j a : ℤ)).toNat = (i a).val
      have := e a
      omega
  · next h =>
    constructor
    · intro e; cases e
    · intro e
      exfalso
      apply h
      intro a
      have hlt : ((i a).val : ℤ) < (s.size a : ℤ) := by exact_mod_cast (i a).isLt
      rw [e a]
      exact ⟨by omega, hlt⟩

/-- THE SCATTER-ADD INTO A VECTOR, READ AT ONE ROW. The accumulating scatter into a length-N vector, the scatter indices an
    [n × 1] column of row numbers (the one operand axis inserted and scatter-indexed, no window axes, the index vector on
    axis 1): entry `q` is the operand's plus the sum of the updates `p` whose index, read SIGNED and not clamped, is `q`. -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : (⟨1, ![N]⟩ : Shape).Idx → EReal) (idx : IVec ⟨2, ![n, 1]⟩ w)
    (upd : (⟨1, ![n]⟩ : Shape).Idx → EReal) (q : Fin N) :
    Ideal.hostScatterAdd d x idx upd (ix1 q)
      = x (ix1 q) + ∑ p : Fin n, if (idx (ixP p)).toInt = (q.val : ℤ) then upd (ix1 p) else 0 := by
  have hm : (0 : Fin 1) ∈ d.scatterDimsToOperandDims := by rw [hsd]; exact List.mem_singleton.mpr rfl
  have hk : (0 : Fin 1) ∉ d.sKept := by
    show (0 : Fin 1) ∉ Shape.kept _ d.insertedWindowDims
    rw [hiw]; simp [Shape.kept]
  -- the start on the one operand axis is the index at row p, read signed; the window coordinate there is 0
  have hstart : ∀ p : Fin n, d.start (ix1 p) idx (0 : Fin 1) = (idx (ixP p)).toInt := by
    intro p
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        obtain rfl : X = 0 := Subsingleton.elim _ _
        rfl
      exact e _
    | ⟨1, _⟩ =>
      unfold ScatterDims.siIdx
      rw [dif_pos (by rw [hivd])]
      apply Fin.ext
      show List.idxOf (0 : Fin 1) d.scatterDimsToOperandDims = 0
      rw [hsd]; simp
  have hwin : ∀ p : Fin n, d.window (ix1 p) (0 : Fin 1) = 0 := by
    intro p; unfold ScatterDims.window; rw [dif_neg hk]
  have hland : ∀ p : Fin n, d.resultIdx? (ix1 p) idx = some (ix1 q) ↔ (idx (ixP p)).toInt = (q.val : ℤ) := by
    intro p
    rw [resultIdx?_eq_some_iff]
    constructor
    · intro h
      have h0 : d.start (ix1 p) idx (0 : Fin 1) + (d.window (ix1 p) (0 : Fin 1) : ℤ) = (q.val : ℤ) := h (0 : Fin 1)
      rw [hstart, hwin] at h0
      omega
    · intro h a
      obtain rfl : a = 0 := Subsingleton.elim _ _
      show d.start (ix1 p) idx (0 : Fin 1) + (d.window (ix1 p) (0 : Fin 1) : ℤ) = (q.val : ℤ)
      rw [hstart, hwin]
      omega
  unfold Ideal.hostScatterAdd
  congr 1
  rw [Finset.sum_filter]
  refine Fintype.sum_equiv ⟨fun j => j 0, fun p => ix1 p, fun j => (eq_ix1 j).symm, fun _ => rfl⟩ _ _ ?_
  intro j
  rw [eq_ix1 j]
  exact if_congr (hland (j 0)) rfl rfl

/-- THE SCATTER-ADD INTO A COLUMN, READ AT ONE ROW. The same scatter into an [N × 1] column, the updates an [n × 1] column
    (the row axis inserted and scatter-indexed, the unit axis a window axis): on the unit axis the start is 0 and the
    window coordinate is the update's, 0; so entry (`q`, 0) is the operand's plus the sum of the updates (`p`, 0) whose
    index, read SIGNED and not clamped, is `q`. -/
theorem scatterAdd_col {N n w : Nat} (d : ScatterDims ⟨2, ![N, 1]⟩ ⟨2, ![n, 1]⟩ ⟨2, ![n, 1]⟩)
    (huw : d.updateWindowDims = [1]) (hiw : d.insertedWindowDims = [0]) (hsd : d.scatterDimsToOperandDims = [0])
    (hivd : d.indexVectorDim = 1) (x : (⟨2, ![N, 1]⟩ : Shape).Idx → EReal) (idx : IVec ⟨2, ![n, 1]⟩ w)
    (upd : (⟨2, ![n, 1]⟩ : Shape).Idx → EReal) (q : Fin N) :
    Ideal.hostScatterAdd d x idx upd (ix2 q (0 : Fin 1))
      = x (ix2 q (0 : Fin 1)) + ∑ p : Fin n, if (idx (ixP p)).toInt = (q.val : ℤ) then upd (ix2 p (0 : Fin 1)) else 0 := by
  have hm : (0 : Fin 2) ∈ d.scatterDimsToOperandDims := by rw [hsd]; exact List.mem_singleton.mpr rfl
  have hnm : (1 : Fin 2) ∉ d.scatterDimsToOperandDims := by rw [hsd]; simp
  have hk : (0 : Fin 2) ∉ d.sKept := by
    show (0 : Fin 2) ∉ Shape.kept _ d.insertedWindowDims
    rw [hiw]; simp [Shape.kept]
  -- on the row axis the start is the index at row p, read signed, and the window coordinate is 0
  have hstart0 : ∀ p : Fin n, d.start (ix2 p (0 : Fin 1)) idx (0 : Fin 2) = (idx (ixP p)).toInt := by
    intro p
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X ∈ d.uScatter → ((ix2 p (0 : Fin 1) : (⟨2, ![n, 1]⟩ : Shape).Idx) X).val = p.val := by
        intro X hX
        have hus : d.uScatter = [0] := by
          show Shape.kept _ d.updateWindowDims = _
          rw [huw]; rfl
        rw [hus] at hX
        obtain rfl := List.mem_singleton.mp hX
        rfl
      exact e _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hwin0 : ∀ p : Fin n, d.window (ix2 p (0 : Fin 1)) (0 : Fin 2) = 0 := by
    intro p; unfold ScatterDims.window; rw [dif_neg hk]
  -- on the unit axis the start is 0 (the map does not name it) and the window coordinate is the update's, 0
  have hstart1 : ∀ p : Fin n, d.start (ix2 p (0 : Fin 1)) idx (1 : Fin 2) = 0 := by
    intro p; unfold ScatterDims.start; rw [dif_neg hnm]
  have hwin1 : ∀ p : Fin n, d.window (ix2 p (0 : Fin 1)) (1 : Fin 2) = 0 := by
    intro p
    unfold ScatterDims.window
    split
    · have e : ∀ X : Fin 2, X ∈ d.updateWindowDims → ((ix2 p (0 : Fin 1) : (⟨2, ![n, 1]⟩ : Shape).Idx) X).val = 0 := by
        intro X hX
        rw [huw] at hX
        obtain rfl := List.mem_singleton.mp hX
        rfl
      exact e _ (List.getElem_mem _)
    · rfl
  have hland : ∀ p : Fin n,
      d.resultIdx? (ix2 p (0 : Fin 1)) idx = some (ix2 q (0 : Fin 1)) ↔ (idx (ixP p)).toInt = (q.val : ℤ) := by
    intro p
    rw [resultIdx?_eq_some_iff]
    constructor
    · intro h
      have h0 : d.start (ix2 p (0 : Fin 1)) idx (0 : Fin 2) + (d.window (ix2 p (0 : Fin 1)) (0 : Fin 2) : ℤ) = (q.val : ℤ) :=
        h (0 : Fin 2)
      rw [hstart0, hwin0] at h0
      omega
    · intro h a
      match a with
      | ⟨0, _⟩ =>
        show d.start (ix2 p (0 : Fin 1)) idx (0 : Fin 2) + (d.window (ix2 p (0 : Fin 1)) (0 : Fin 2) : ℤ) = (q.val : ℤ)
        rw [hstart0, hwin0]
        omega
      | ⟨1, _⟩ =>
        show d.start (ix2 p (0 : Fin 1)) idx (1 : Fin 2) + (d.window (ix2 p (0 : Fin 1)) (1 : Fin 2) : ℤ) = ((0 : ℕ) : ℤ)
        rw [hstart1, hwin1]
        omega
  -- an [n × 1] index is (its row, 0): the sum over the updates is the sum over the rows
  have hj : ∀ j : (⟨2, ![n, 1]⟩ : Shape).Idx, ix2 (j 0) (0 : Fin 1) = j := by
    intro j
    funext a
    match a with
    | ⟨0, _⟩ => rfl
    | ⟨1, _⟩ =>
      apply Fin.ext
      have h := (j 1).isLt
      change _ < 1 at h
      show 0 = (j 1).val
      omega
  unfold Ideal.hostScatterAdd
  congr 1
  rw [Finset.sum_filter]
  refine Fintype.sum_equiv (⟨fun j => j 0, fun p => ix2 p (0 : Fin 1), hj, fun _ => rfl⟩ : (⟨2, ![n, 1]⟩ : Shape).Idx ≃ Fin n) _ _ ?_
  intro j
  rw [← hj j]
  exact if_congr (hland (j 0)) rfl rfl

end Cert.LibTakeScatter
-- ==== Proof.ColumnCast.lean ====
/-
  Two reads of a reshape that the value library does not carry: a vector laid as a one-column
  rectangle, and such a column read back as a vector. Both keep the row-major position: entry i of
  the vector is entry (i, 0) of the column.
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnCast
-- ==== Proof.LibScatterPair.lean ====
/-
  The host's accumulating float scatter, at the ideal values, into a vector and into a one-column
  rectangle: when the two operands agree entry by entry, the two update arrays agree entry by entry
  and the scatter indices are the same column of row numbers, the two results agree at every row.
  Both are the operand's entry plus the sum of the updates whose index word, read signed and not
  clamped, names that row; the sums run over the same updates.

  Stated for abstract sizes, and over the host operation itself, so that a use at the sizes of a
  program is a syntactic match and nothing of those sizes is ever unfolded.
-/
import proofs.«430267_j22686017257664_3_alg».proof.Proof.LibTakeScatter

namespace Cert.LibScatterPair

open Idealize.ShloMosaic Idealize.ShloMosaic.ValueIdx Idealize.ShloMosaic.StableHlo.Predicate
open Cert.LibTakeScatter

/-- THE TWO SCATTER-ADDS AGREE AT A ROW: into a length-`N` vector (no window axes) and into an `[N × 1]` column (the
    unit axis a window axis), the scatter indices one `[n × 1]` column of row numbers for both, given that the operands
    agree at the row (`hx`) and the updates agree entry by entry (`hu`). -/
theorem scatterAdd_vec_eq_col {N n w : Nat}
    (d1 : ScatterDims ⟨1, ![N]⟩ ⟨2, ![n, 1]⟩ ⟨1, ![n]⟩)
    (huw1 : d1.updateWindowDims = []) (hiw1 : d1.insertedWindowDims = [0]) (hsd1 : d1.scatterDimsToOperandDims = [0])
    (hivd1 : d1.indexVectorDim = 1)
    (d2 : ScatterDims ⟨2, ![N, 1]⟩ ⟨2, ![n, 1]⟩ ⟨2, ![n, 1]⟩)
    (huw2 : d2.updateWindowDims = [1]) (hiw2 : d2.insertedWindowDims = [0]) (hsd2 : d2.scatterDimsToOperandDims = [0])
    (hivd2 : d2.indexVectorDim = 1)
    (x1 : FVec Ideal ⟨1, ![N]⟩ .f32) (x2 : FVec Ideal ⟨2, ![N, 1]⟩ .f32) (idx : IVec ⟨2, ![n, 1]⟩ w)
    (u1 : FVec Ideal ⟨1, ![n]⟩ .f32) (u2 : FVec Ideal ⟨2, ![n, 1]⟩ .f32) (q : Fin N)
    (hx : x1 (ix1 q) = x2 (ix2 q (0 : Fin 1))) (hu : ∀ p : Fin n, u1 (ix1 p) = u2 (ix2 p (0 : Fin 1))) :
    Host.scatterAdd (F := Ideal) d1 x1 idx u1 (ix1 q) = Host.scatterAdd (F := Ideal) d2 x2 idx u2 (ix2 q (0 : Fin 1)) := by
  show Ideal.hostScatterAdd d1 x1 idx u1 (ix1 q) = Ideal.hostScatterAdd d2 x2 idx u2 (ix2 q (0 : Fin 1))
  rw [scatterAdd_vec d1 huw1 hiw1 hsd1 hivd1, scatterAdd_col d2 huw2 hiw2 hsd2 hivd2, hx]
  refine congrArg (fun b : EReal => x2 (ix2 q (0 : Fin 1)) + b) (Finset.sum_congr rfl fun p _ => ?_)
  rw [hu p]

end Cert.LibScatterPair
-- ==== Proof.Bridge.lean ====
/-
  The kernel program's result and the reference's are one function of the five arguments.

  Both sum, into each target node, one message per edge, then add the bias and apply
  v · tanh(softplus v). They differ in where the degree scale of the SOURCE node enters. The kernel
  multiplies it into the projected features before the take, so its message is
  ((proj · d_src) · w) · d_tgt; the reference forms the normalisation (d_src · w) · d_tgt first and
  multiplies by the projection taken separately. A take reads one entry, so the take of a product is
  the product of the takes, and the product of extended reals is commutative and associative: the
  messages are equal edge by edge, with no finiteness needed. The reference keeps the node axis as a
  column through its take and its scatter, the kernel as a vector; read at a row they are the same
  sums.
-/
import proofs.«430267_j22686017257664_3_alg».proof.Proof.KernelValue
import proofs.«430267_j22686017257664_3_alg».proof.Proof.LibTakeScatter
import proofs.«430267_j22686017257664_3_alg».proof.Proof.ColumnCast
import proofs.«430267_j22686017257664_3_alg».proof.Proof.LibScatterPair
import proofs.«430267_j22686017257664_3_alg».proof.Proof.Gen.ReferenceIdeal.Read
import Idealize.ShloMosaic.Lib.StableHlo.Predicate
import Idealize.ShloMosaic.Lib.ValueLayout
import Idealize.ShloMosaic.Lib.ValueIdx
import Idealize.ShloMosaic.PureOps.Ideal.Laws

set_option maxRecDepth 16384

noncomputable section

namespace Cert.Bridge

open Cert.KernelIdeal Cert.KernelIdeal.Gen Cert.ReferenceIdeal.Read Cert.KernelIdeal.HostReads Cert.KernelIdeal.ResultValue
open Idealize.ShloMosaic Idealize.ShloMosaic.ValueIdx Idealize.ShloMosaic.StableHlo.Predicate
open Cert.LibTakeScatter Cert.ColumnCast Cert.LibScatterPair

/-- The rank-1 index at a coordinate, in its two spellings. -/
theorem ofFin_eq_ix1 {n : Nat} (k : Fin n) : Shape.Idx.ofFin k = ix1 k := (Shape.Idx.eq_ofFin (ix1 k)).symm

/-- The node an edge's index word names once read as a take reads it: signed, clamped into the nodes. -/
abbrev nodeOf (idx : IVec S13000000x1 32) (p : Fin 13000000) : Fin 200000 :=
  ⟨min (idx (ixP p)).toInt.toNat (200000 - 1), by omega⟩

/-- A take out of a node vector, by the kernel program's record. -/
theorem take_k (x : S200000.Idx → EReal) (idx : IVec S13000000x1 32) (p : Fin 13000000) :
    Host.gather Cert.KernelIdeal.gather_S200000_S13000000x1_S13000000_n_0_n_n_0_1_1 x idx (ix1 p) = x (ix1 (nodeOf idx p)) := by
  have h := gather_take Cert.KernelIdeal.gather_S200000_S13000000x1_S13000000_n_0_n_n_0_1_1 rfl rfl rfl rfl x idx p (by decide)
  rw [ofFin_eq_ix1, ofFin_eq_ix1] at h
  exact h

/-- The same take by the reference's record. -/
theorem take_r (x : S200000.Idx → EReal) (idx : IVec S13000000x1 32) (p : Fin 13000000) :
    Host.gather Cert.ReferenceIdeal.gather_S200000_S13000000x1_S13000000_n_0_n_n_0_1_1 x idx (ix1 p) = x (ix1 (nodeOf idx p)) := by
  have h := gather_take Cert.ReferenceIdeal.gather_S200000_S13000000x1_S13000000_n_0_n_n_0_1_1 rfl rfl rfl rfl x idx p (by decide)
  rw [ofFin_eq_ix1, ofFin_eq_ix1] at h
  exact h

/-- A take of rows out of a node column, by the reference's record. -/
theorem take_col_r (x : S200000x1.Idx → EReal) (idx : IVec S13000000x1 32) (p : Fin 13000000) :
    Host.gather Cert.ReferenceIdeal.gather_S200000x1_S13000000x1_S13000000x1_1_0_n_n_0_1_11 x idx (ix2 p (0 : Fin 1)) = x (ix2 (nodeOf idx p) (0 : Fin 1)) :=
  gather_col (by decide) Cert.ReferenceIdeal.gather_S200000x1_S13000000x1_S13000000x1_1_0_n_n_0_1_11 rfl rfl rfl rfl rfl rfl x idx p

variable (x0 : (⟨S200000x256, .f32⟩ : BufTy).Contents (Elt Ideal)) (x1 : (⟨S2x12800000, .i32⟩ : BufTy).Contents (Elt Ideal))
    (x2 : (⟨S12800000, .f32⟩ : BufTy).Contents (Elt Ideal)) (x3 : (⟨S256x1, .f32⟩ : BufTy).Contents (Elt Ideal))
    (x4 : (⟨S1, .f32⟩ : BufTy).Contents (Elt Ideal))

/-- The reference wraps and lays out the source indices a second time for its take of the projection: the same words. -/
theorem src_again : val_main_v40 (F := Ideal) x1 = val_main_v22 (F := Ideal) x1 := rfl

/-- The projection of a node's features, in the reference's spelling and in the kernel's. -/
theorem proj_row (r : Fin 200000) :
    val_main_v33 (F := Ideal) x0 x3 (ix2 r (0 : Fin 1)) = ∑ k : Fin 256, x0 (ix2 r k) * x3 (ix2 k (0 : Fin 1)) := by
  rw [val_main_v33_apply]
  refine Finset.sum_congr rfl fun k _ => ?_
  have el : lidx_main_v33 (ix2 r (0 : Fin 1)) k = ix2 r k := funext fun a => by
    match a with
    | ⟨0, _⟩ => rfl
    | ⟨1, _⟩ => rfl
  have er : ridx_main_v33 (ix2 r (0 : Fin 1)) k = ix2 k (0 : Fin 1) := funext fun a => by
    match a with
    | ⟨0, _⟩ => rfl
    | ⟨1, _⟩ => rfl
  rw [el, er]

/-- The kernel program's messages, one per edge: the scaled projection taken at the edge's source, times the edge's
    weight, times the degree scale taken at the edge's target. -/
abbrev msgK : FVec Ideal S13000000 .f32 :=
  mulf (mulf (Host.gather Cert.KernelIdeal.gather_S200000_S13000000x1_S13000000_n_0_n_n_0_1_1 (shapeCast S200000 (ProjRegion.projOut x0 x3 (scaleCol x1 x2)) shapeCasts_S200000x1_S200000)
      (val_main_v22 (F := Ideal) x1)) (val_main_v8 (F := Ideal) x2))
    (Host.gather Cert.KernelIdeal.gather_S200000_S13000000x1_S13000000_n_0_n_n_0_1_1 (val_main_v16 (F := Ideal) x1 x2) (val_main_v30 (F := Ideal) x1))

/-- The product of four extended reals regrouped: multiplication there is commutative and associative (no
    distributivity is used, so nothing has to be finite). -/
theorem mul_regroup (S d w c : EReal) :
    ((S * d) * w) * c = FloatOps.mulf (F := Ideal) (φ := .f32) (FloatOps.mulf (F := Ideal) (φ := .f32) (FloatOps.mulf (F := Ideal) (φ := .f32) d w) c) S := by
  show ((S * d) * w) * c = ((d * w) * c) * S
  rw [mul_assoc S d w, mul_assoc S (d * w) c, mul_comm S]

/-- ONE EDGE'S MESSAGE is the same in both programs: the kernel's `((proj · d_src) · w) · d_tgt` is the reference's
    `((d_src · w) · d_tgt) · proj`. -/
theorem msg_eq (p : Fin 13000000) :
    (msgK x0 x1 x2 x3 (ix1 p) : EReal) = val_main_v42 (F := Ideal) x0 x1 x2 x3 (ix2 p (0 : Fin 1)) := by
  have hidx : idx_main_v34 (ix2 p (0 : Fin 1)) = ix1 p := funext fun a => by
    match a with
    | ⟨0, _⟩ => rfl
  rw [val_main_v42_apply, val_main_v34_apply, hidx, val_main_v32_apply, val_main_v24_apply]
  unfold val_main_v41 val_main_v23 val_main_v31
  rw [take_col_r, src_again, proj_row, take_r, take_r]
  unfold msgK
  rw [mulf_apply, mulf_apply, take_k, take_k, shapeCast_a1_a_apply, ProjRegion.projOut_row]
  unfold scaleCol
  rw [shapeCast_a_a1_apply]
  exact mul_regroup _ _ _ _

/-- ONE NODE'S SUM of messages is the same in both programs: the kernel adds its messages into a vector, the reference
    into a column, each edge landing on the node its raw target word names; the two start from zero and their updates
    agree edge by edge. -/
theorem node_eq (n : Fin 200000) :
    (aggRow (F := Ideal) (ProjRegion.projOut x0 x3 (scaleCol x1 x2)) (val_main_v5 (F := Ideal) x1) (val_main_v6 (F := Ideal) x1)
        (val_main_v8 (F := Ideal) x2) (val_main_v16 (F := Ideal) x1 x2) (ix2 (0 : Fin 1) n) : EReal)
      = val_main_v45 (F := Ideal) x0 x1 x2 x3 (ix2 n (0 : Fin 1)) := by
  unfold aggRow val_main_v45
  rw [shapeCast_a_1a_apply]
  exact scatterAdd_vec_eq_col Cert.KernelIdeal.scatter_S200000_S13000000x1_S13000000_n_0_0_1 rfl rfl rfl rfl Cert.ReferenceIdeal.scatter_S200000x1_S13000000x1_S13000000x1_1_0_0_1 rfl rfl rfl rfl _ _ _ _ _ n rfl
    (fun p => msg_eq x0 x1 x2 x3 p)

/-- The zero word's value. -/
abbrev zeroF : Ideal .f32 := FloatOps.ofBits (F := Ideal) .f32 0x00000000#32

/-- THE ACTIVATION, in the kernel's spelling and in the reference's, is one function of the pre-activation value `v`:
    `v · tanh (max v 0 + log1p (exp (−|v − 0|)))`. Both guard the softplus by "is `v − 0` different from itself", which no
    extended real is, so both take the softplus branch; the kernel writes the exponent as `0 − |v − 0|`, the reference
    as the negation. -/
theorem act_eq (v : Ideal .f32) :
    FloatOps.mulf (F := Ideal) (φ := .f32) v
        (FloatOps.tanh (Scalar.select (FloatOps.cmpf .one (FloatOps.subf v zeroF) (FloatOps.subf v zeroF)) (FloatOps.addf v zeroF)
          (FloatOps.addf (FloatOps.maximumf v zeroF)
            (FloatOps.log1p (FloatOps.exp (FloatOps.subf zeroF (FloatOps.absf (FloatOps.subf v zeroF))))))))
      = FloatOps.mulf (F := Ideal) (φ := .f32) v
        (FloatOps.hostUnary .tanh (Scalar.select (FloatOps.cmpf .une (FloatOps.subf v zeroF) (FloatOps.subf v zeroF)) (FloatOps.addf v zeroF)
          (FloatOps.addf (FloatOps.maximumf v zeroF)
            (FloatOps.hostUnary .log1p (FloatOps.hostUnary .exp (FloatOps.hostNegf (FloatOps.hostAbsf (FloatOps.subf v zeroF)))))))) := by
  have h1 : FloatOps.cmpf (F := Ideal) (φ := .f32) .one (FloatOps.subf v zeroF) (FloatOps.subf v zeroF) = 0#1 := by
    show Ideal.cmp .one _ _ = 0#1
    simp [Ideal.cmp]
  have h2 : FloatOps.cmpf (F := Ideal) (φ := .f32) .une (FloatOps.subf v zeroF) (FloatOps.subf v zeroF) = 0#1 := by
    show Ideal.cmp .une _ _ = 0#1
    simp [Ideal.cmp]
  rw [h1, h2]
  simp only [Scalar.select, if_neg (by decide : ¬((0#1 : BitVec 1) = 1#1)), Ideal.tanh_def, Ideal.hostUnary_tanh_def,
    Ideal.log1p_def, Ideal.hostUnary_log1p_def, Ideal.exp_def, Ideal.hostUnary_exp_def, Ideal.subf_def, Ideal.hostNegf_def,
    Ideal.negf_def, Ideal.hostAbsf_def, zeroF, Ideal.ofBits_def, Ideal.ofBits_zero_f32, zero_sub]

/-- The second kernel's body read at one index, for any shape: the activation of the input's entry plus the bias, in the
    reference's spelling. (The body's operations act entry by entry; `act_eq` joins the two spellings.) -/
theorem act_vec {s : Shape} (A : FVec Ideal s .f32) (b : Ideal .f32) (i : s.Idx) :
    mulf (addf A (broadcast s b))
        (tanh
          (select
            (cmpf .one (subf (addf A (broadcast s b)) (broadcast s (FloatOps.ofBits .f32 0x00000000#32)))
              (subf (addf A (broadcast s b)) (broadcast s (FloatOps.ofBits .f32 0x00000000#32))))
            (addf (addf A (broadcast s b)) (broadcast s (FloatOps.ofBits .f32 0x00000000#32)))
            (addf (maximumf (addf A (broadcast s b)) (broadcast s (FloatOps.ofBits .f32 0x00000000#32)))
              (log1p
                (exp
                  (subf (broadcast s (FloatOps.ofBits .f32 0x00000000#32))
                    (absf (subf (addf A (broadcast s b)) (broadcast s (FloatOps.ofBits .f32 0x00000000#32))))))))))
        i
      = FloatOps.mulf (FloatOps.addf (A i) b)
        (FloatOps.hostUnary .tanh
          (Scalar.select
            (FloatOps.cmpf .une (FloatOps.subf (FloatOps.addf (A i) b) (FloatOps.ofBits .f32 0x00000000#32))
              (FloatOps.subf (FloatOps.addf (A i) b) (FloatOps.ofBits .f32 0x00000000#32)))
            (FloatOps.addf (FloatOps.addf (A i) b) (FloatOps.ofBits .f32 0x00000000#32))
            (FloatOps.addf (FloatOps.maximumf (FloatOps.addf (A i) b) (FloatOps.ofBits .f32 0x00000000#32))
              (FloatOps.hostUnary .log1p
                (FloatOps.hostUnary .exp
                  (FloatOps.hostNegf
                    (FloatOps.hostAbsf
                      (FloatOps.subf (FloatOps.addf (A i) b) (FloatOps.ofBits .f32 0x00000000#32))))))))) :=
  act_eq (FloatOps.addf (A i) b)

/-- BOTH PROGRAMS' RESULTS are one function of the arguments: at node `n` each is the activation of the node's sum of
    messages plus the bias. -/
theorem out_eq : kernelOut x0 x1 x2 x3 x4 = val_main_v52 (F := Ideal) x0 x1 x2 x3 x4 := by
  funext i
  obtain ⟨u, n, rfl⟩ : ∃ (u : Fin 1) (n : Fin 200000), i = ix2 u n := ⟨i 0, i 1, eq_ix2 i⟩
  obtain rfl : u = 0 := Subsingleton.elim _ _
  have hnode := node_eq x0 x1 x2 x3 n
  have hidx : idx_main_v52 (ix2 (0 : Fin 1) n) = ix2 n (0 : Fin 1) := funext fun a => Fin.ext (by
    match a with
    | ⟨0, _⟩ => show ((0 : ℕ) * 200000 + n.val) / 1 = n.val; omega
    | ⟨1, _⟩ => rfl)
  have hb46 : idx_main_v46 (idx_main_v47 (ix2 n (0 : Fin 1))) = ix1 (0 : Fin 1) := funext fun a => by
    match a with
    | ⟨0, _⟩ => rfl
  have hbias : extractAt ![0, 0] (shapeCast S1x1 x4 shapeCasts_S1_S1x1) inpos_S1x1_p0_0 = x4 (ix1 (0 : Fin 1)) := by
    unfold extractAt
    exact shapeCast_apply x4 shapeCasts_S1_S1x1 _ (ix1 (0 : Fin 1)) (by
      rw [Shape.rowMajor_val_one, Shape.rowMajor_val_two]; rfl)
  rw [val_main_v52_apply, hidx, val_main_v51_apply, val_main_v50_apply, val_main_v49_apply, val_main_call1_v4_apply,
    val_main_call1_v6_apply, val_main_call1_v11_apply, val_main_call1_v1_apply, val_main_call1_v10_apply,
    val_main_call1_v9_apply, val_main_call1_v8_apply, val_main_call1_v7_apply, val_main_call1_v3_apply,
    val_main_call1_v0_apply, val_main_call1_v2_apply, val_main_call1_v5_apply, val_main_call1_cst_apply,
    val_main_v48_apply, val_main_v47_apply, val_main_v46_apply, hb46, ← hnode]
  show k1_pay1 (F := Ideal)
      (aggRow (F := Ideal) (ProjRegion.projOut x0 x3 (scaleCol x1 x2)) (val_main_v5 (F := Ideal) x1) (val_main_v6 (F := Ideal) x1)
        (val_main_v8 (F := Ideal) x2) (val_main_v16 (F := Ideal) x1 x2))
      (shapeCast S1x1 x4 shapeCasts_S1_S1x1) (ix2 (0 : Fin 1) n) = _
  generalize aggRow (F := Ideal) (ProjRegion.projOut x0 x3 (scaleCol x1 x2)) (val_main_v5 (F := Ideal) x1) (val_main_v6 (F := Ideal) x1)
    (val_main_v8 (F := Ideal) x2) (val_main_v16 (F := Ideal) x1 x2) = A
  unfold k1_pay1
  rw [shapeCast_self, hbias]
  exact act_vec A (x4 (ix1 (0 : Fin 1))) (ix2 (0 : Fin 1) n)

end Cert.Bridge

end
-- ==== Proof.lean ====
/-
  A graph convolution with one output channel: project each node's 256 features onto a column,
  scale by the inverse square root of the node's weighted in-degree (self loops included), send
  along every edge the source's value times the edge weight times the target's degree scale, sum the
  messages arriving at each node, add a bias, and apply v · tanh(softplus v).

  The kernel program does the projection in a first kernel, 5000 rows at a time, with the SOURCE
  node's degree scale already multiplied in, forms the messages and their per-node sums between the
  kernels with the same host operations the reference uses, and applies bias and activation in a
  second kernel over the whole row of nodes at once. The reference projects on the host, forms the
  symmetric normalisation first and multiplies by the gathered projection. Over the extended reals
  the two agree: a take reads one entry, so taking the scaled projection is scaling the taken
  projection, and the product of four extended reals does not depend on its grouping or order (no
  distributive law, hence no finiteness, is used). Rounding to bf16 before the matrix product is the
  identity there, the product into a zero accumulator is the plain sum of products, and the softplus
  guard "the value differs from itself" is false on both sides.

  The frames of the two kernel programs are the generated ones; the reference's is its generated run
  with the result dropped. Nothing was rewritten between the kernel and its idealization.
-/
import proofs.«430267_j22686017257664_3_alg».proof.Defs
import proofs.«430267_j22686017257664_3_alg».proof.Proof.Gen.Kernel
import proofs.«430267_j22686017257664_3_alg».proof.Proof.Gen.Kernel.Skeleton
import proofs.«430267_j22686017257664_3_alg».proof.Proof.Gen.Kernel.Launch
import proofs.«430267_j22686017257664_3_alg».proof.Proof.Gen.Kernel.Points
import proofs.«430267_j22686017257664_3_alg».proof.Proof.Gen.Kernel.Frame
import proofs.«430267_j22686017257664_3_alg».proof.Proof.Gen.KernelIdeal
import proofs.«430267_j22686017257664_3_alg».proof.Proof.Gen.KernelIdeal.Skeleton
import proofs.«430267_j22686017257664_3_alg».proof.Proof.Gen.KernelIdeal.Launch
import proofs.«430267_j22686017257664_3_alg».proof.Proof.Gen.KernelIdeal.Points
import proofs.«430267_j22686017257664_3_alg».proof.Proof.Gen.KernelIdeal.Frame
import proofs.«430267_j22686017257664_3_alg».proof.Proof.Gen.ReferenceIdeal
import proofs.«430267_j22686017257664_3_alg».proof.Proof.Gen.Pre_finite_inputs
import proofs.«430267_j22686017257664_3_alg».proof.Proof.Gen.ReferenceIdeal.Run
import proofs.«430267_j22686017257664_3_alg».proof.Proof.Gen.ReferenceIdeal.Read
import proofs.«430267_j22686017257664_3_alg».proof.Proof.ResultRun
import proofs.«430267_j22686017257664_3_alg».proof.Proof.KernelValue
import proofs.«430267_j22686017257664_3_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel program's is
    `kernelOut` of the arguments (its run with the result named, then the value of each region and host stretch), the
    reference's is its last stage of the arguments, and the two are one function. -/
theorem algebraic : Cert.algebraic_KernelIdeal_ReferenceIdeal := by
  intro m ρ m' ρ' _ hagree
  refine ⟨fun c => Cert.KernelIdeal.Gen.W6 m ρ c (Proc.devRef .tc Cert.KernelIdeal.main_v41),
    Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v52 m' c = Cert.KernelIdeal.Gen.W6 m ρ c (Proc.devRef .tc Cert.KernelIdeal.main_v41)
  rw [Cert.ReferenceIdeal.Read.val_main_v52_eq, (hagree c).1, (hagree c).2.1, (hagree c).2.2.1, (hagree c).2.2.2.1,
    (hagree c).2.2.2.2, Cert.KernelIdeal.ResultValue.result_eq]
  exact (Cert.Bridge.out_eq _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
